-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x16 : Shape := ⟨2, ![4096, 16]⟩
abbrev S16x4096 : Shape := ⟨2, ![16, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x4096 .f32) (main_arg1 : FVec F S4096x16 .f32) (main_arg2 : FVec F S16x4096 .f32) (main_arg3 : FVec F S4096x4096 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S8192x4096 : Shape := ⟨2, ![8192, 4096]⟩
abbrev S4096x16 : Shape := ⟨2, ![4096, 16]⟩
abbrev S16x4096 : Shape := ⟨2, ![16, 4096]⟩
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1024x16 : Shape := ⟨2, ![1024, 16]⟩
abbrev S16x1024 : Shape := ⟨2, ![16, 1024]⟩
abbrev S1x1024 : Shape := ⟨2, ![1, 1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S4096x16, .f32⟩
  | .hbm, ⟨2, _⟩ => ⟨S16x4096, .f32⟩
  | .hbm, ⟨3, _⟩ => ⟨S4096x4096, .f32⟩
  | .hbm, ⟨4, _⟩ => ⟨S4096, .f32⟩
  | .hbm, ⟨5, _⟩ => ⟨S1x4096, .f32⟩
  | .hbm, ⟨6, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x16, .f32⟩
  | .local _ .vmem, ⟨5, _⟩ => ⟨S1024x16, .f32⟩
  | .local _ .vmem, ⟨6, _⟩ => ⟨S16x1024, .f32⟩
  | .local _ .vmem, ⟨7, _⟩ => ⟨S16x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_15 : BitVec 32 := 0#32
  let v25 : BitVec 1 := Scalar.cmpi .ne v24 c0_i32_15
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024x16_S1024x16_0_0 : ∀ a, (![0, 0] : Fin 2 → Nat) a + S1024x16.size a ≤ S1024x16.size a
  h_S1024x16 : 0 < S1024x16.numel
  inb_S16x1024_S16x1024_0_0 : ∀ a, (![0, 0] : Fin 2 → Nat) a + S16x1024.size a ≤ S16x1024.size a
  h_S16x1024 : 0 < S16x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  dot_S1024x1024_S1024x16_S1024x16_1_0_0_1_n_n_wf : DotDims.WF S1024x1024 S1024x16 S1024x16 [1] [0] [0] [1] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S4096x16.size a
  hwx0_2 : ∀ i : grid0.Coords, EltTy.bits .f32 = 32 ∨ (Rect.block (s := S4096x16) S1024x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x4096.size a
  hwx0_3 : ∀ i : grid0.Coords, EltTy.bits .f32 = 32 ∨ (Rect.block (s := S16x4096) S16x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x16 : Shape := ⟨2, ![4096, 16]⟩
abbrev S16x4096 : Shape := ⟨2, ![16, 4096]⟩
abbrev S4096x4096 : Shape := ⟨2, ![4096, 4096]⟩
abbrev S4096 : Shape := ⟨1, ![4096]⟩
abbrev S8192x16 : Shape := ⟨2, ![8192, 16]⟩
abbrev S_ : Shape := ⟨0, ![]⟩
abbrev S1x4096 : Shape := ⟨2, ![1, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x16, .f32⟩
  | .hbm, ⟨2, _⟩ => ⟨S16x4096, .f32⟩
  | .hbm, ⟨3, _⟩ => ⟨S4096x4096, .f32⟩
  | .hbm, ⟨4, _⟩ => ⟨S4096, .f32⟩
  | .hbm, ⟨5, _⟩ => ⟨S8192x16, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S4096x4096, .f32⟩
  | .hbm, ⟨11, _⟩ => ⟨S8192x4096, .f32⟩
  | .hbm, ⟨12, _⟩ => ⟨S1x4096, .f32⟩
  | .hbm, ⟨13, _⟩ => ⟨S8192x4096, .f32⟩
  | .hbm, ⟨14, _⟩ => ⟨S8192x4096, .f32⟩
  | .hbm, ⟨15, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x16_S8192x16_1_0_0_1_n_n_wf : DotDims.WF S8192x4096 S4096x16 S8192x16 [1] [0] [0] [1] [] []
  dot_S8192x16_S16x4096_S8192x4096_1_0_0_1_n_n_wf : DotDims.WF S8192x16 S16x4096 S8192x4096 [1] [0] [0] [1] [] []
  dot_S8192x4096_S4096x4096_S8192x4096_1_0_0_1_n_n_wf : DotDims.WF S8192x4096 S4096x4096 S8192x4096 [1] [0] [0] [1] [] []

variable [Facts₀]

def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S8192x16_S16x4096_S8192x4096_1_0_0_1_n_n : DotDims S8192x16 S16x4096 S8192x4096 where
  lhsContracting := [1]
  rhsContracting := [0]
  lhsNonContracting := [0]
  rhsNonContracting := [1]
  lhsBatch := []
  rhsBatch := []
  wf := dot_S8192x16_S16x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibIdealReal.lean ====
/-
  General lemmas: the extended-real operations of the ideal float instance on REAL operands give the real result.
  A finite sum of real numbers embedded in the extended reals is the embedded sum; the ideal quotient of two reals with
  a nonzero divisor is the real quotient; the ideal logarithm of a positive real is the real logarithm; an ordered
  compare of two reals is the bit of the real order; a one-bit word widened to 32 bits and converted to a float is the
  real 1 or 0; a maximum over a nonempty finite family of reals starting from minus infinity is the real maximum.
-/
import Idealize.ShloMosaic.PureOps.Ideal
import Idealize.ShloMosaic.PureOps.Ideal.Laws

noncomputable section

namespace Idealize.ShloMosaic.IdealReal

open Idealize.ShloMosaic

/-- A finite sum of embedded reals is the embedded sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The ideal quotient of two reals, the divisor nonzero, is the real quotient. -/
theorem div_coe_coe (x y : ℝ) (hy : y ≠ 0) : Ideal.div (x : EReal) (y : EReal) = ((x / y : ℝ) : EReal) := by
  rw [Ideal.div_coe hy, ← EReal.coe_mul]
  congr 1
  field_simp

/-- The ideal logarithm of a positive real is the real logarithm. -/
theorem log_coe_pos {x : ℝ} (hx : 0 < x) : Ideal.log (x : EReal) = ((Real.log x : ℝ) : EReal) := by
  rw [Ideal.log_coe, if_neg (not_le.mpr hx)]

/-- The ideal exponential of a real is the real exponential. -/
theorem exp_coe' (x : ℝ) : Ideal.exp (x : EReal) = ((Real.exp x : ℝ) : EReal) := Ideal.exp_coe x

theorem cmp_ogt_coe (x y : ℝ) : Ideal.cmp .ogt (x : EReal) (y : EReal) = if y < x then 1#1 else 0#1 := by
  unfold Ideal.cmp
  by_cases h : y < x
  · simp [h, EReal.coe_lt_coe_iff]
  · simp [h, EReal.coe_lt_coe_iff]

theorem cmp_oge_coe (x y : ℝ) : Ideal.cmp .oge (x : EReal) (y : EReal) = if y ≤ x then 1#1 else 0#1 := by
  unfold Ideal.cmp
  by_cases h : y ≤ x
  · simp [h, EReal.coe_le_coe_iff]
  · simp [h, EReal.coe_le_coe_iff]

/-- A one-bit word widened to 32 bits and converted (signed) to a float is the real 1 or 0. -/
theorem sitofp_setWidth_bit (b : BitVec 1) :
    (FloatOps.sitofp (F := Ideal) .f32 (b.setWidth 32) : EReal) = if b = 1#1 then ((1 : ℝ) : EReal) else ((0 : ℝ) : EReal) := by
  have hb : b = 0#1 ∨ b = 1#1 := by
    have := b.isLt
    rcases Nat.lt_or_ge b.toNat 1 with h | h
    · left; apply BitVec.eq_of_toNat_eq; simp; omega
    · right; apply BitVec.eq_of_toNat_eq; simp; omega
  rcases hb with rfl | rfl
  · show ((((0#1 : BitVec 1).setWidth 32).toInt : ℝ) : EReal) = _
    simp
  · show ((((1#1 : BitVec 1).setWidth 32).toInt : ℝ) : EReal) = _
    norm_num [BitVec.toInt]

/-- The maximum of embedded reals is the embedded maximum. -/
theorem max_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- A product with an embedded 1-or-0 selects. -/
theorem coe_ite {p : Prop} [Decidable p] (a b : ℝ) :
    (if p then ((a : ℝ) : EReal) else ((b : ℝ) : EReal)) = (((if p then a else b) : ℝ) : EReal) := by
  split <;> rfl

end Idealize.ShloMosaic.IdealReal

end
-- ==== Proof.LibProductNT.lean ====
/-
  A matrix times the transpose of another, over the extended reals.

  Entry (a, b) of A·Bᵀ, for an r×k matrix A and an n×k matrix B, is the sum over the shared column coordinate c of
  A(a, c) · B(b, c). Addition of extended reals is commutative and associative, so this is a plain finite sum: no order
  of summation is left in it and nothing asks that an entry be finite.

  The matrix unit forms such a product (both operands contracted along axis 1) and adds it to an accumulator; into a zero
  accumulator it leaves exactly that entry (`matmul_zero_apply`), whatever float formats the factors were narrowed to on
  the way, a change of format being the identity at the ideal values.

  A long row splits into consecutive stretches of equal length: a sum over m·n columns is the sum over the m stretches of
  the sums over each stretch's n columns (`sum_stretches`).
-/
import Idealize.ShloMosaic.Lib.ValueIdx
import Idealize.ShloMosaic.PureOps.Ideal.Laws
import Mathlib.Algebra.BigOperators.Fin
import Mathlib.Logic.Equiv.Fin.Basic

noncomputable section

namespace ProductNT

open Idealize.ShloMosaic Idealize.ShloMosaic.ValueIdx

variable {r k n : Nat}

/-- Entry (a, b) of A·Bᵀ. -/
def entry (A : (⟨2, ![r, k]⟩ : Shape).Idx → EReal) (B : (⟨2, ![n, k]⟩ : Shape).Idx → EReal) (a : Fin r) (b : Fin n) : EReal :=
  ∑ c : Fin k, A (ix2 a c) * B (ix2 b c)

/-- The matrix unit's product of an r×k by an n×k operand, both contracted along their second axis, accumulated into a
    zero block and read at (a, b), is that entry. -/
theorem matmul_zero_apply {φ₁ φ₂ : FTy}
    (w : DotDims.WF ⟨2, ![r, k]⟩ ⟨2, ![n, k]⟩ ⟨2, ![r, n]⟩ [1] [1] [0] [0] [] [])
    (prec : Option ContractPrecision) (A : FVec Ideal ⟨2, ![r, k]⟩ φ₁) (B : FVec Ideal ⟨2, ![n, k]⟩ φ₂) (a : Fin r) (b : Fin n) :
    matmul (⟨[1], [1], [0], [0], [], [], w⟩ : DotDims _ _ _) prec A B (constant (F := Ideal) ⟨2, ![r, n]⟩ .f32 0x00000000#32) (ix2 a b)
      = entry A B a b := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![r, k]⟩ ⟨2, ![n, k]⟩ ⟨2, ![r, n]⟩) k rfl rfl c
  have l2 : (⟨[1], [1], [0], [0], [], [], w⟩ : DotDims ⟨2, ![r, k]⟩ ⟨2, ![n, k]⟩ ⟨2, ![r, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![r, k]⟩ ⟨2, ![n, k]⟩ ⟨2, ![r, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A sum over m·n consecutive columns is the sum, over the m stretches of n columns, of each stretch's sum. -/
theorem sum_stretches {M : Type*} [AddCommMonoid M] (m n : Nat) (f : Fin (m * n) → M) :
    ∑ c : Fin (m * n), f c
      = ∑ s : Fin m, ∑ j : Fin n, f ⟨s.val * n + j.val, by
          have hs := s.isLt; have hj := j.isLt
          calc s.val * n + j.val < s.val * n + n := by omega
            _ = (s.val + 1) * n := by ring
            _ ≤ m * n := Nat.mul_le_mul_right n hs⟩ := by
  rw [← Equiv.sum_comp finProdFinEquiv f, Fintype.sum_prod_type]
  refine Finset.sum_congr rfl fun s _ => Finset.sum_congr rfl fun j _ => congrArg f (Fin.ext ?_)
  show j.val + n * s.val = s.val * n + j.val
  rw [Nat.mul_comm, Nat.add_comm]

end ProductNT

end
-- ==== Proof.LoraSpec.lean ====
/-
  A linear layer with a low-rank correction: out = (x·A)·B·2 + (x·Wᵀ + b), for x of 8192 rows and 4096 columns,
  A 4096×16, B 16×4096, W 4096×4096 (used transposed) and b a row of 4096.

  Two arrangements of the same number are stated here, entry by entry, over extended reals.

  The blocked arrangement cuts the 4096 shared columns into four stretches of 1024. Stretch s contributes, to entry
  (row, col), the partial product Σ_c x(row, s·1024 + c) · W(col, s·1024 + c) plus twice the low-rank partial product
  Σ_r (Σ_c x(row, s·1024 + c) · A(s·1024 + c, r)) · B(r, col); the four contributions are added to a zero, and the bias
  b(col) last.

  The plain arrangement is twice Σ_r (Σ_k x(row, k) · A(k, r)) · B(r, col), plus (Σ_k x(row, k) · W(col, k) + b(col)).

  Passing from one to the other moves the factor B(r, col) and the factor 2 across sums, which is distributivity. On
  the extended reals that law fails at infinities, so the two agree when every entry is a real number
  (`blocked_eq_plain`); the proof pushes the embedding of the reals outward and closes over the reals.
-/
import Idealize.ShloMosaic.Lib.ValueIdx
import Idealize.ShloMosaic.PureOps.Ideal
import proofs.«166719_j49520972922883_1_alg».proof.Proof.LibIdealReal
import proofs.«166719_j49520972922883_1_alg».proof.Proof.LibProductNT

noncomputable section

namespace LoraLinear

open Idealize.ShloMosaic Idealize.ShloMosaic.ValueIdx

/-- The scale 2.0 and the accumulator's starting value +0.0, as the extended reals their bit patterns denote. -/
abbrev two : EReal := Ideal.ofBits .f32 0x40000000#32
abbrev zero : EReal := Ideal.ofBits .f32 0x00000000#32

theorem two_eq : two = ((2 : ℝ) : EReal) := by
  show Ideal.ofBits .f32 0x40000000#32 = _
  simp [Ideal.ofBits, Ideal.ieee, -EReal.coe_mul]; norm_num

theorem zero_eq : zero = ((0 : ℝ) : EReal) := by
  show Ideal.ofBits .f32 0x00000000#32 = _
  simp [Ideal.ofBits, Ideal.ieee]

/-- The pattern of +∞ denotes the top of the extended reals. -/
theorem inf_eq : Ideal.ofBits .f32 0x7F800000#32 = (⊤ : EReal) := by
  simp [Ideal.ofBits, Ideal.ieee]

/-- An extended real whose absolute value is below +∞ is a real number. -/
theorem real_of_abs_lt_top (x : EReal) (h : max x (-x) < ⊤) : ∃ r : ℝ, x = r := by
  induction x using EReal.rec with
  | bot => simp at h
  | coe r => exact ⟨r, rfl⟩
  | top => simp at h

/-- Column c of stretch s among the 4096 shared columns. -/
def col (s : Fin 4) (c : Fin 1024) : Fin 4096 := ⟨s.val * 1024 + c.val, by have := s.isLt; have := c.isLt; omega⟩

abbrev XIdx := (⟨2, ![8192, 4096]⟩ : Shape).Idx
abbrev AIdx := (⟨2, ![4096, 16]⟩ : Shape).Idx
abbrev BIdx := (⟨2, ![16, 4096]⟩ : Shape).Idx
abbrev WIdx := (⟨2, ![4096, 4096]⟩ : Shape).Idx
abbrev bIdx := (⟨1, ![4096]⟩ : Shape).Idx

/-- What stretch s of the shared columns contributes to entry (row, cl). -/
def stretchTerm (X : XIdx → EReal) (A : AIdx → EReal) (B : BIdx → EReal) (W : WIdx → EReal)
    (row : Fin 8192) (cl : Fin 4096) (s : Fin 4) : EReal :=
  (∑ c : Fin 1024, X (ix2 row (col s c)) * W (ix2 cl (col s c)))
    + (∑ r : Fin 16, (∑ c : Fin 1024, X (ix2 row (col s c)) * A (ix2 (col s c) r)) * B (ix2 r cl)) * two

/-- The blocked arrangement. -/
def blocked (X : XIdx → EReal) (A : AIdx → EReal) (B : BIdx → EReal) (W : WIdx → EReal) (b : bIdx → EReal) :
    XIdx → EReal := fun i =>
  (zero + ∑ s : Fin 4, stretchTerm X A B W (i 0) (i 1) s) + b (ix1 (i 1))

/-- The plain arrangement. -/
def plain (X : XIdx → EReal) (A : AIdx → EReal) (B : BIdx → EReal) (W : WIdx → EReal) (b : bIdx → EReal) :
    XIdx → EReal := fun i =>
  (∑ r : Fin 16, (∑ k : Fin 4096, X (ix2 (i 0) k) * A (ix2 k r)) * B (ix2 r (i 1))) * two
    + ((∑ k : Fin 4096, X (ix2 (i 0) k) * W (ix2 (i 1) k)) + b (ix1 (i 1)))

/-- The two arrangements over the reals: split each long sum into its four stretches, then move the factors. -/
theorem real_blocked_eq_plain (x w : Fin 4096 → ℝ) (a : Fin 4096 → Fin 16 → ℝ) (b : Fin 16 → ℝ) (bias : ℝ) :
    (0 + ∑ s : Fin 4, ((∑ c : Fin 1024, x (col s c) * w (col s c))
        + (∑ r : Fin 16, (∑ c : Fin 1024, x (col s c) * a (col s c) r) * b r) * 2)) + bias
      = (∑ r : Fin 16, (∑ k : Fin 4096, x k * a k r) * b r) * 2 + ((∑ k : Fin 4096, x k * w k) + bias) := by
  have hs : ∀ f : Fin 4096 → ℝ, ∑ k : Fin 4096, f k = ∑ s : Fin 4, ∑ c : Fin 1024, f (col s c) :=
    fun f => ProductNT.sum_stretches 4 1024 f
  rw [hs (fun k => x k * w k)]
  have ha : ∀ r : Fin 16, (∑ k : Fin 4096, x k * a k r) = ∑ s : Fin 4, ∑ c : Fin 1024, x (col s c) * a (col s c) r :=
    fun r => hs (fun k => x k * a k r)
  simp only [ha]
  have hL : ∑ s : Fin 4, ∑ r : Fin 16, (∑ c : Fin 1024, x (col s c) * a (col s c) r) * b r
      = ∑ r : Fin 16, (∑ s : Fin 4, ∑ c : Fin 1024, x (col s c) * a (col s c) r) * b r := by
    rw [Finset.sum_comm]
    exact Finset.sum_congr rfl fun r _ => (Finset.sum_mul _ _ _).symm
  rw [Finset.sum_add_distrib, ← Finset.sum_mul, hL]
  ring

/-- On real entries the blocked and the plain arrangement are the same array. -/
theorem blocked_eq_plain (X : XIdx → EReal) (A : AIdx → EReal) (B : BIdx → EReal) (W : WIdx → EReal) (b : bIdx → EReal)
    (hX : ∀ i, ∃ r : ℝ, X i = r) (hA : ∀ i, ∃ r : ℝ, A i = r) (hB : ∀ i, ∃ r : ℝ, B i = r)
    (hW : ∀ i, ∃ r : ℝ, W i = r) (hb : ∀ i, ∃ r : ℝ, b i = r) :
    blocked X A B W b = plain X A B W b := by
  choose xr hxr using hX
  choose ar har using hA
  choose br hbr using hB
  choose wr hwr using hW
  choose cr hcr using hb
  obtain rfl : X = fun i => ((xr i : ℝ) : EReal) := funext hxr
  obtain rfl : A = fun i => ((ar i : ℝ) : EReal) := funext har
  obtain rfl : B = fun i => ((br i : ℝ) : EReal) := funext hbr
  obtain rfl : W = fun i => ((wr i : ℝ) : EReal) := funext hwr
  obtain rfl : b = fun i => ((cr i : ℝ) : EReal) := funext hcr
  funext i
  unfold blocked plain stretchTerm
  simp only [two_eq, zero_eq, ← EReal.coe_mul, IdealReal.coe_sum, ← EReal.coe_add]
  exact congrArg _ (real_blocked_eq_plain (fun k => xr (ix2 (i 0) k)) (fun k => wr (ix2 (i 1) k))
    (fun k r => ar (ix2 k r)) (fun r => br (ix2 r (i 1))) (cr (ix1 (i 1))))

end LoraLinear

end
-- ==== Proof.Finite.lean ====
/-
  The precondition says every entry of the five argument arrays has absolute value below +∞; on the extended reals that
  makes every entry a real number. The printed predicate is a conjunction of five "all entries" reductions of the
  comparison |x| < +∞, one per array.
-/
import proofs.«166719_j49520972922883_1_alg».proof.Pre_finite_inputs
import proofs.«166719_j49520972922883_1_alg».proof.Proof.LoraSpec
import Idealize.ShloMosaic.Lib.ReduceAll
import Idealize.ShloMosaic.Lib.Affine
import Idealize.ShloMosaic.Lib.ValueIdx

noncomputable section

namespace Cert.Pre_finite_inputs.Finite

open Cert.Pre_finite_inputs Idealize.ShloMosaic

variable [Facts]

instance : Subsingleton S_.Idx := ⟨fun a b => funext fun d => d.elim0⟩

/-- One entry: the comparison bit |x| < +∞ set means x is real. -/
theorem real_of_bit (x : EReal) (h : Ideal.cmp .olt (max x (-x)) (Ideal.ofBits .f32 0x7F800000#32) = 1#1) : ∃ r : ℝ, x = r := by
  rw [LoraLinear.inf_eq] at h
  refine LoraLinear.real_of_abs_lt_top x ?_
  by_contra hn
  unfold Ideal.cmp at h
  simp [hn] at h

/-- Every entry of every argument is real when the precondition's predicate is all ones. -/
theorem entries_real (x0 : FVec Ideal S8192x4096 .f32) (x1 : FVec Ideal S4096x16 .f32) (x2 : FVec Ideal S16x4096 .f32)
    (x3 : FVec Ideal S4096x4096 .f32) (x4 : FVec Ideal S4096 .f32)
    (h : fn (F := Ideal) x0 x1 x2 x3 x4 = fun _ => 1#1) :
    (∀ i, ∃ r : ℝ, x0 i = r) ∧ (∀ i, ∃ r : ℝ, x1 i = r) ∧ (∀ i, ∃ r : ℝ, x2 i = r) ∧ (∀ i, ∃ r : ℝ, x3 i = r)
      ∧ (∀ i, ∃ r : ℝ, x4 i = r) := by
  have h0 := congrFun h ValueIdx.ix0
  dsimp only [fn, fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨fun i => real_of_bit (x0 i) (Host.reduce_andi_all _ _ _ _ _ h0' i),
    fun i => real_of_bit (x1 i) (Host.reduce_andi_all _ _ _ _ _ h1 i),
    fun i => real_of_bit (x2 i) (Host.reduce_andi_all _ _ _ _ _ h2 i),
    fun i => real_of_bit (x3 i) (Host.reduce_andi_all _ _ _ _ _ h3 i),
    fun i => real_of_bit (x4 i) (Host.reduce_andi_all _ _ _ _ _ h4 i)⟩

end Cert.Pre_finite_inputs.Finite

end
-- ==== Proof.RefValue.lean ====
/-
  The reference computes the plain arrangement: read one operation at a time, entry (row, col) of its result is twice
  Σ_r (Σ_k x(row, k) · A(k, r)) · B(r, col) plus (Σ_k x(row, k) · Wᵀ(k, col) + b(col)), and the transposed weight read
  at (k, col) is W(col, k).
-/
import proofs.«166719_j49520972922883_1_alg».proof.Proof.Gen.ReferenceIdeal.Read
import proofs.«166719_j49520972922883_1_alg».proof.Proof.LoraSpec

noncomputable section

namespace Cert.ReferenceIdeal.RefValue

open Cert.ReferenceIdeal Cert.ReferenceIdeal.Read Idealize.ShloMosaic Idealize.ShloMosaic.ValueIdx

/-- The reference's result, as a function of the five argument arrays, is the plain arrangement. -/
theorem reference_eq_plain (x0 : (⟨S8192x4096, .f32⟩ : BufTy).Contents (Elt Ideal)) (x1 : (⟨S4096x16, .f32⟩ : BufTy).Contents (Elt Ideal))
    (x2 : (⟨S16x4096, .f32⟩ : BufTy).Contents (Elt Ideal)) (x3 : (⟨S4096x4096, .f32⟩ : BufTy).Contents (Elt Ideal))
    (x4 : (⟨S4096, .f32⟩ : BufTy).Contents (Elt Ideal)) :
    val_main_v9 (F := Ideal) x0 x1 x2 x3 x4 = LoraLinear.plain x0 x1 x2 x3 x4 := by
  funext i
  -- the index each operation reads, in coordinates
  have e1 : ∀ (k : Fin 16) (k' : Fin 4096), lidx_main_v0 (lidx_main_v1 i k) k' = ix2 (i 0) k' := fun k k' =>
    funext fun a => Fin.ext (by match a with | ⟨0, _⟩ => rfl | ⟨1, _⟩ => rfl)
  have e2 : ∀ (k : Fin 16) (k' : Fin 4096), ridx_main_v0 (lidx_main_v1 i k) k' = ix2 k' k := fun k k' =>
    funext fun a => Fin.ext (by match a with | ⟨0, _⟩ => rfl | ⟨1, _⟩ => rfl)
  have e3 : ∀ k : Fin 16, ridx_main_v1 i k = ix2 k (i 1) := fun k =>
    funext fun a => Fin.ext (by match a with | ⟨0, _⟩ => rfl | ⟨1, _⟩ => rfl)
  have e4 : ∀ k : Fin 4096, lidx_main_v5 i k = ix2 (i 0) k := fun k =>
    funext fun a => Fin.ext (by match a with | ⟨0, _⟩ => rfl | ⟨1, _⟩ => rfl)
  have e5 : ∀ k : Fin 4096, idx_main_v4 (ridx_main_v5 i k) = ix2 (i 1) k := fun k =>
    funext fun a => Fin.ext (by match a with | ⟨0, _⟩ => rfl | ⟨1, _⟩ => rfl)
  have e6 : idx_main_v6 (idx_main_v7 i) = ix1 (i 1) :=
    funext fun a => Fin.ext (by match a with | ⟨0, _⟩ => rfl)
  rw [val_main_v9_apply, val_main_v3_apply, val_main_v8_apply, val_main_v1_apply, val_main_v2_apply, val_main_cst_apply,
    val_main_v5_apply, val_main_v7_apply, val_main_v6_apply]
  simp only [val_main_v0_apply, val_main_v4_apply, e1, e2, e3, e4, e5, e6]
  rfl

end Cert.ReferenceIdeal.RefValue

end
-- ==== Proof.KernelPieces.lean ====
/-
  What one grid point leaves behind, read off the stores the kernel body makes.

  The body keeps a 1024×1024 accumulator between grid points. With x, w, a, b the point's blocks of the four matrices and
  acc the accumulator's contents, one point stores update(acc) = acc + (x·wᵀ + ((x·a)·b)·2) into the accumulator. At the
  first point of a run of four the accumulator is first reset to zero, so that point leaves update(0); at the last point
  of the run the output block is the updated accumulator plus the bias row, broadcast down the rows.
-/
import proofs.«166719_j49520972922883_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

variable (c : Dev nD) (i : grid0.Coords)
  (arg3 : Memref sig .tc .vmem S1024x1024 .f32) (harg3 : arg3.IsWhole) (arg4 : Memref sig .tc .vmem S1024x1024 .f32) (harg4 : arg4.IsWhole)
  (arg5 : Memref sig .tc .vmem S1024x16 .f32) (harg5 : arg5.IsWhole) (arg6 : Memref sig .tc .vmem S16x1024 .f32) (harg6 : arg6.IsWhole)
  (arg7 : Memref sig .tc .vmem S1x1024 .f32) (harg7 : arg7.IsWhole) (arg8 : Memref sig .tc .vmem S1024x1024 .f32) (harg8 : arg8.IsWhole)
  (arg9 : Memref sig .tc .vmem S1024x1024 .f32) (harg9 : arg9.IsWhole)
  (x0 : Vec F S1024x1024 .f32) (x1 : Vec F S1024x1024 .f32) (x2 : Vec F S1024x16 .f32) (x3 : Vec F S16x1024 .f32) (x4 : Vec F S1x1024 .f32)
  (xs0 : Vec F S1024x1024 .f32)

/-- A point in the middle of a run leaves the updated accumulator. -/
theorem scratch_B (hc0 : ¬cond0_0 i) (hc1 : ¬cond0_1 i) :
    sout0_B_0 c i arg3 harg3 arg4 harg4 arg5 harg5 arg6 harg6 arg7 harg7 arg8 harg8 arg9 harg9 hc0 hc1 x0 x1 x2 x3 x4 xs0 = k0_pay2 x0 x1 x2 x3 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz]
  simp only [View.readAt_eq_ld, harg3.read_unread, harg4.read_unread, harg5.read_unread, harg6.read_unread, harg9.read_unread,
    View.ld_unit_zero (S := S1024x1024) hz, View.ld_unit_zero (S := S1024x16) hz, View.ld_unit_zero (S := S16x1024) hz]

/-- The last point of a run leaves the updated accumulator too, -/
theorem scratch_C (hc0 : ¬cond0_0 i) (hc1 : cond0_1 i) :
    sout0_C_0 c i arg3 harg3 arg4 harg4 arg5 harg5 arg6 harg6 arg7 harg7 arg8 harg8 arg9 harg9 hc0 hc1 x0 x1 x2 x3 x4 xs0 = k0_pay2 x0 x1 x2 x3 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  simp only [View.readAt_eq_ld, harg3.read_unread, harg4.read_unread, harg5.read_unread, harg6.read_unread, harg9.read_unread,
    View.ld_unit_zero (S := S1024x1024) hz, View.ld_unit_zero (S := S1024x16) hz, View.ld_unit_zero (S := S16x1024) hz]

/-- and writes, as its output block, the updated accumulator plus the bias row. -/
theorem output_C (hc0 : ¬cond0_0 i) (hc1 : cond0_1 i) :
    out0_C_5 c i arg3 harg3 arg4 harg4 arg5 harg5 arg6 harg6 arg7 harg7 arg8 harg8 arg9 harg9 hc0 hc1 x0 x1 x2 x3 x4 xs0 = k0_pay3 (k0_pay2 x0 x1 x2 x3 xs0) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  simp only [View.readAt_eq_ld, harg3.read_unread, harg4.read_unread, harg5.read_unread, harg6.read_unread, harg7.read_unread,
    harg9.read_unread, View.readCov_unit_zero (S := S1024x1024) _ hz,
    View.ld_unit_zero (S := S1024x1024) hz, View.ld_unit_zero (S := S1024x16) hz, View.ld_unit_zero (S := S16x1024) hz,
    View.ld_unit_zero (S := S1x1024) hz]

/-- The first point of a run resets the accumulator to zero and then updates it. -/
theorem scratch_A (hc0 : cond0_0 i) (hc1 : ¬cond0_1 i) :
    sout0_A_0 c i arg3 harg3 arg4 harg4 arg5 harg5 arg6 harg6 arg7 harg7 arg8 harg8 arg9 harg9 hc0 hc1 x0 x1 x2 x3 x4 = k0_pay2 x0 x1 x2 x3 (k0_pay1 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1024) hz]
  simp only [View.readAt_eq_ld, harg3.read_unread, harg4.read_unread, harg5.read_unread, harg6.read_unread,
    View.readCov_unit_zero (S := S1024x1024) _ hz,
    View.ld_unit_zero (S := S1024x1024) hz, View.ld_unit_zero (S := S1024x16) hz, View.ld_unit_zero (S := S16x1024) hz]

end Cert.KernelIdeal.Pieces

end
-- ==== Proof.LibSideBySide.lean ====
/-
  Two matrix products with a common right factor, laid side by side.

  Over the extended reals, entry (a, b) of the product of an r×k matrix A with a k×n matrix B is the sum over the
  contracted coordinate c of A(a, c) · B(c, b). No rounding and no order of summation is left in it: addition on the
  extended reals is commutative and associative, so the sum is a plain finite sum and nothing here asks that an entry be
  finite.

  A kernel forms such a product on the matrix unit, accumulating into a zero block; the host forms it by a
  dot_general with no accumulator. At the ideal values both are that sum (`kernelProduct_apply`, `hostProduct_apply`),
  whatever float formats the factors were narrowed to on the way, a change of format being the identity there.

  `sideBySide A₁ A₂ B` is the r×w array whose columns 0 … n−1 hold A₁·B and whose columns n … 2n−1 hold A₂·B: what
  concatenating the two products along the column axis gives (`concatenate_products`), and equally what writing one product
  into the left half of a block and the other into the right half gives. Row p of either product depends on row p of its left
  factor alone, so a block of rows of the side-by-side array is the side-by-side array of the blocks of rows (`sideBySide_rows`).
-/
import Idealize.ShloMosaic.Lib.StackMember

noncomputable section

namespace SideBySide

open Idealize.ShloMosaic Idealize.ShloMosaic.ValueIdx

variable {r k n w : Nat}

/-- Entry (a, b) of the product A·B of an r×k and a k×n matrix of extended reals. -/
def entry (A : (⟨2, ![r, k]⟩ : Shape).Idx → EReal) (B : (⟨2, ![k, n]⟩ : Shape).Idx → EReal) (a : Fin r) (b : Fin n) : EReal :=
  ∑ c : Fin k, A (ix2 a c) * B (ix2 c b)

/-- The host's product of an r×k by a k×n matrix (rows by columns, one contracted axis), read at (a, b), is that entry. The
    dimension numbers are given as a record equal to the plain one, so that a program's own record fits. -/
theorem hostProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    Host.dotGeneral d prec A B (ix2 a b) = entry A B a b := by
  subst hd
  exact StackMember.dotGeneral_plain_apply prec A B a b

/-- The matrix unit's product accumulated into a zero block, read at (a, b), is the same entry: the zero contributes
    nothing to the sum. -/
theorem kernelProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    matmul d prec A B (constant (F := Ideal) ⟨2, ![r, n]⟩ .f32 0x00000000#32) (ix2 a b) = entry A B a b := by
  rw [matmul_zero_eq_dotGeneral]
  exact hostProduct_apply d hd prec A B a b

/-- The r×w array with A₁·B in columns 0 … n−1 and A₂·B in columns n … 2n−1 (zero in any column past 2n−1, of which an
    array of width 2n has none). -/
def sideBySide (A₁ A₂ : (⟨2, ![r, k]⟩ : Shape).Idx → EReal) (B : (⟨2, ![k, n]⟩ : Shape).Idx → EReal) :
    (⟨2, ![r, w]⟩ : Shape).Idx → EReal := fun j =>
  if h : (j 1).val < n then entry A₁ B (j 0) ⟨(j 1).val, h⟩
  else if h' : (j 1).val - n < n then entry A₂ B (j 0) ⟨(j 1).val - n, h'⟩ else 0

/-- A column of the left half reads the first product. -/
theorem sideBySide_left (A₁ A₂ : (⟨2, ![r, k]⟩ : Shape).Idx → EReal) (B : (⟨2, ![k, n]⟩ : Shape).Idx → EReal)
    (a : Fin r) (b : Fin w) (hb : b.val < n) :
    sideBySide (w := w) A₁ A₂ B (ix2 a b) = entry A₁ B a ⟨b.val, hb⟩ := by
  show (if h : b.val < n then entry A₁ B a ⟨b.val, h⟩
    else if h' : b.val - n < n then entry A₂ B a ⟨b.val - n, h'⟩ else 0) = _
  rw [dif_pos hb]

/-- A column of the right half reads the second product, n columns to the left. -/
theorem sideBySide_right (A₁ A₂ : (⟨2, ![r, k]⟩ : Shape).Idx → EReal) (B : (⟨2, ![k, n]⟩ : Shape).Idx → EReal)
    (a : Fin r) (b : Fin w) (hb : n ≤ b.val) (hb' : b.val - n < n) :
    sideBySide (w := w) A₁ A₂ B (ix2 a b) = entry A₂ B a ⟨b.val - n, hb'⟩ := by
  show (if h : b.val < n then entry A₁ B a ⟨b.val, h⟩
    else if h' : b.val - n < n then entry A₂ B a ⟨b.val - n, h'⟩ else 0) = _
  rw [dif_neg (Nat.not_lt.2 hb), dif_pos hb']

/-- A column past both halves reads zero. -/
theorem sideBySide_beyond (A₁ A₂ : (⟨2, ![r, k]⟩ : Shape).Idx → EReal) (B : (⟨2, ![k, n]⟩ : Shape).Idx → EReal)
    (a : Fin r) (b : Fin w) (hb : ¬ b.val < n) (hb' : ¬ b.val - n < n) :
    sideBySide (w := w) A₁ A₂ B (ix2 a b) = 0 := by
  show (if h : b.val < n then entry A₁ B a ⟨b.val, h⟩
    else if h' : b.val - n < n then entry A₂ B a ⟨b.val - n, h'⟩ else 0) = _
  rw [dif_neg hb, dif_neg hb']

/-- A block of rows of the side-by-side array is the side-by-side array of that block of rows of each left factor: row p
    of a product depends on row p of its left factor only. Here a₁ and a₂ are rows off … off + r − 1 of A₁ and A₂. -/
theorem sideBySide_rows {R : Nat} (A₁ A₂ : (⟨2, ![R, k]⟩ : Shape).Idx → EReal) (B : (⟨2, ![k, n]⟩ : Shape).Idx → EReal)
    (a₁ a₂ : (⟨2, ![r, k]⟩ : Shape).Idx → EReal) (off : Nat) (hoff : off + r ≤ R)
    (h₁ : ∀ (p : Fin r) (c : Fin k), a₁ (ix2 p c) = A₁ (ix2 ⟨off + p.val, by have := p.isLt; omega⟩ c))
    (h₂ : ∀ (p : Fin r) (c : Fin k), a₂ (ix2 p c) = A₂ (ix2 ⟨off + p.val, by have := p.isLt; omega⟩ c))
    (p : Fin r) (b : Fin w) :
    sideBySide (w := w) a₁ a₂ B (ix2 p b)
      = sideBySide (w := w) A₁ A₂ B (ix2 ⟨off + p.val, by have := p.isLt; omega⟩ b) := by
  have e₁ : ∀ q : Fin n, entry a₁ B p q = entry A₁ B ⟨off + p.val, by have := p.isLt; omega⟩ q := fun q => by
    unfold entry; exact Finset.sum_congr rfl fun c _ => by rw [h₁]
  have e₂ : ∀ q : Fin n, entry a₂ B p q = entry A₂ B ⟨off + p.val, by have := p.isLt; omega⟩ q := fun q => by
    unfold entry; exact Finset.sum_congr rfl fun c _ => by rw [h₂]
  by_cases hb : b.val < n
  · rw [sideBySide_left _ _ _ _ _ hb, sideBySide_left _ _ _ _ _ hb, e₁]
  · by_cases hb' : b.val - n < n
    · rw [sideBySide_right _ _ _ _ _ (Nat.not_lt.1 hb) hb', sideBySide_right _ _ _ _ _ (Nat.not_lt.1 hb) hb', e₂]
    · rw [sideBySide_beyond _ _ _ _ _ hb hb', sideBySide_beyond _ _ _ _ _ hb hb']

/-- The host's two products concatenated along the column axis are the two products side by side. -/
theorem concatenate_products {φ₁ φ₂ : FTy} (d : DotDims ⟨2, ![r, k]⟩ ⟨2, ![k, n]⟩ ⟨2, ![r, n]⟩) (hd : d = DotDims.plain r k n)
    (prec : Option ContractPrecision) (A₁ A₂ : FVec Ideal ⟨2, ![r, k]⟩ φ₁) (B : FVec Ideal ⟨2, ![k, n]⟩ φ₂)
    (hw : w = n + n)
    (h : Shape.Concatenates [(⟨2, ![r, n]⟩ : Shape), (⟨2, ![r, n]⟩ : Shape)] (⟨2, ![r, w]⟩ : Shape) 1) :
    concatenate (⟨2, ![r, w]⟩ : Shape) 1
        [⟨(⟨2, ![r, n]⟩ : Shape), Host.dotGeneral d prec A₁ B⟩, ⟨(⟨2, ![r, n]⟩ : Shape), Host.dotGeneral d prec A₂ B⟩] h
      = sideBySide (w := w) A₁ A₂ B := by
  funext j
  obtain ⟨a, b, rfl⟩ : ∃ (a : Fin r) (b : Fin w), j = ix2 a b := ⟨j 0, j 1, eq_ix2 j⟩
  by_cases hb : b.val < n
  · rw [sideBySide_left A₁ A₂ B a b hb, ← hostProduct_apply d hd prec A₁ B a ⟨b.val, hb⟩]
    exact concatenate_pair_apply_left 1 _ _ h (ix2 a b) rfl (ix2 a ⟨b.val, hb⟩)
      (fun q => by match q with | ⟨0, _⟩ => rfl | ⟨1, _⟩ => rfl)
  · have hb1 : n ≤ b.val := Nat.not_lt.1 hb
    have hb2 : b.val - n < n := by have := b.isLt; omega
    rw [sideBySide_right A₁ A₂ B a b hb1 hb2, ← hostProduct_apply d hd prec A₂ B a ⟨b.val - n, hb2⟩]
    exact concatenate_pair_apply_right 1 _ _ h (ix2 a b) rfl rfl (ix2 a ⟨b.val - n, hb2⟩)
      (fun q hq => by
        match q with
        | ⟨0, _⟩ => rfl
        | ⟨1, _⟩ => exact absurd rfl hq)
      (by show (b.val - n) + n = b.val; omega)

end SideBySide

end
-- ==== Proof.KernelPayload.lean ====
/-
  The body's arithmetic read at one entry, over extended reals.

  With x and w the point's 1024×1024 blocks, a its 1024×16 block and b its 16×1024 block, entry (p, q) of the update is
  acc(p, q) + (Σ_c x(p, c) · w(q, c) + (Σ_r (Σ_c x(p, c) · a(c, r)) · b(r, q)) · 2): the matrix unit's products into zero
  blocks are plain sums, and narrowing a factor to a shorter float format changes nothing at the ideal values. The
  reset block is zero at every entry, and the output block adds the bias row's entry q to entry (p, q).
-/
import proofs.«166719_j49520972922883_1_alg».proof.Proof.Gen.KernelIdeal.Skeleton
import proofs.«166719_j49520972922883_1_alg».proof.Proof.LibProductNT
import proofs.«166719_j49520972922883_1_alg».proof.Proof.LibSideBySide
import proofs.«166719_j49520972922883_1_alg».proof.Proof.LoraSpec
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.TcCoe Idealize.ShloMosaic.ValueIdx

/-- The reset block is zero everywhere. -/
theorem reset_apply (j : S1024x1024.Idx) : k0_pay1 (F := Ideal) j = LoraLinear.zero := by
  unfold k0_pay1
  rw [shapeCast_self]
  rfl

/-- Entry (p, q) of the updated accumulator. -/
theorem update_apply (x w : Vec Ideal S1024x1024 .f32) (a : Vec Ideal S1024x16 .f32) (b : Vec Ideal S16x1024 .f32)
    (acc : Vec Ideal S1024x1024 .f32) (p q : Fin 1024) :
    k0_pay2 (F := Ideal) x w a b acc (ix2 p q)
      = acc (ix2 p q) + ((∑ c : Fin 1024, x (ix2 p c) * w (ix2 q c))
          + (∑ r : Fin 16, (∑ c : Fin 1024, x (ix2 p c) * a (ix2 c r)) * b (ix2 r q)) * LoraLinear.two) := by
  have e1 : matmul (F := Ideal) dot_S1024x1024_S1024x1024_S1024x1024_1_1_0_0_n_n none (truncf (F := Ideal) .bf16 x bitsLt_bf16_f32)
      (truncf (F := Ideal) .bf16 w bitsLt_bf16_f32) (constant (F := Ideal) S1024x1024 .f32 0x00000000#32) (ix2 p q)
        = ∑ c : Fin 1024, x (ix2 p c) * w (ix2 q c) :=
    ProductNT.matmul_zero_apply _ none (truncf (F := Ideal) .bf16 x bitsLt_bf16_f32) (truncf (F := Ideal) .bf16 w bitsLt_bf16_f32) p q
  have e2 : ∀ r : Fin 16, matmul (F := Ideal) dot_S1024x1024_S1024x16_S1024x16_1_0_0_1_n_n none (truncf (F := Ideal) .bf16 x bitsLt_bf16_f32)
      (truncf (F := Ideal) .bf16 a bitsLt_bf16_f32) (constant (F := Ideal) S1024x16 .f32 0x00000000#32) (ix2 p r)
        = ∑ c : Fin 1024, x (ix2 p c) * a (ix2 c r) := fun r =>
    SideBySide.kernelProduct_apply _ rfl none (truncf (F := Ideal) .bf16 x bitsLt_bf16_f32) (truncf (F := Ideal) .bf16 a bitsLt_bf16_f32) p r
  have e3 : ∀ y : FVec Ideal S1024x16 .bf16, matmul (F := Ideal) dot_S1024x16_S16x1024_S1024x1024_1_0_0_1_n_n none y
      (truncf (F := Ideal) .bf16 b bitsLt_bf16_f32) (constant (F := Ideal) S1024x1024 .f32 0x00000000#32) (ix2 p q)
        = ∑ r : Fin 16, y (ix2 p r) * b (ix2 r q) := fun y =>
    SideBySide.kernelProduct_apply _ rfl none y (truncf (F := Ideal) .bf16 b bitsLt_bf16_f32) p q
  unfold k0_pay2
  rw [shapeCast_self, addf_apply, addf_apply, mulf_apply, broadcast_apply, e1, e3]
  simp only [truncf_apply, e2]
  rfl

/-- Entry (p, q) of the output block: the accumulator's entry plus the bias row's entry q. -/
theorem output_apply (acc : Vec Ideal S1024x1024 .f32) (bias : Vec Ideal S1x1024 .f32) (p q : Fin 1024) :
    k0_pay3 (F := Ideal) acc bias (ix2 p q) = acc (ix2 p q) + bias (ix2 (0 : Fin 1) q) := by
  unfold k0_pay3
  rw [addf_apply, broadcastTo_1b_ab_apply, shapeCast_self, shapeCast_self]

end Cert.KernelIdeal.Payload

end
-- ==== Proof.KernelValue.lean ====
/-
  The kernel's result array, entry by entry, is the blocked arrangement of the linear layer with its low-rank correction.

  The grid has 8 × 4 × 4 points, point t at block row t / 16, block column (t / 4) mod 4 and stretch t mod 4 of the shared
  columns. A run of four consecutive points keeps one output block and walks the four stretches: its first point resets the
  accumulator and adds stretch 0's contribution, each later point adds its own stretch's, and the last point writes the
  accumulator plus the bias row back as block (t / 16, (t / 4) mod 4) of the result. So the accumulator at the last point
  is zero plus the sum of the four stretches' contributions, by induction along the run, and the 32 written blocks tile
  the 8192 × 4096 result.
-/
import proofs.«166719_j49520972922883_1_alg».proof.Proof.Gen.KernelIdeal.Value
import proofs.«166719_j49520972922883_1_alg».proof.Proof.KernelPieces
import proofs.«166719_j49520972922883_1_alg».proof.Proof.KernelPayload
import proofs.«166719_j49520972922883_1_alg».proof.Proof.LoraSpec
import Idealize.ShloMosaic.Lib.StableHlo.Run

noncomputable section

namespace Cert.KernelIdeal.LoraValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The five argument arrays as launched. -/
abbrev xarr (c : Dev nD) : LoraLinear.XIdx → EReal := m ((c : Thread nD τ).loc main_arg0)
abbrev aarr (c : Dev nD) : LoraLinear.AIdx → EReal := m ((c : Thread nD τ).loc main_arg1)
abbrev barr (c : Dev nD) : LoraLinear.BIdx → EReal := m ((c : Thread nD τ).loc main_arg2)
abbrev warr (c : Dev nD) : LoraLinear.WIdx → EReal := m ((c : Thread nD τ).loc main_arg3)
abbrev biasarr (c : Dev nD) : LoraLinear.bIdx → EReal := m ((c : Thread nD τ).loc main_arg4)

/-- Each window's block at a point, at its literal shape. -/
abbrev xblk (c : Dev nD) (t : Fin cfg0.N) : Vec Ideal S1024x1024 .f32 := iblk m c 0 t
abbrev wblk (c : Dev nD) (t : Fin cfg0.N) : Vec Ideal S1024x1024 .f32 := iblk m c 1 t
abbrev ablk (c : Dev nD) (t : Fin cfg0.N) : Vec Ideal S1024x16 .f32 := iblk m c 2 t
abbrev bblk (c : Dev nD) (t : Fin cfg0.N) : Vec Ideal S16x1024 .f32 := iblk m c 3 t
abbrev biasblk (c : Dev nD) (t : Fin cfg0.N) : Vec Ideal S1x1024 .f32 := iblk m c 4 t

/-- Where each window's block sits at point t: block row t / 16, block column (t / 4) mod 4, stretch t mod 4. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val % 4 ∧ win0_2.index t (1 : Fin 2) = 0
    ∧ win0_3.index t (0 : Fin 2) = 0 ∧ win0_3.index t (1 : Fin 2) = t.val / 4 % 4
    ∧ win0_4.index t (0 : Fin 2) = 0 ∧ win0_4.index t (1 : Fin 2) = t.val / 4 % 4
    ∧ win0_5.index t (0 : Fin 2) = t.val / 16 ∧ win0_5.index t (1 : Fin 2) = t.val / 4 % 4 :=
  (by decide +kernel : ∀ t : Fin grid0.N, _)

/-- Entry (p, k) of x's block at point t is x at row (t / 16)·1024 + p and column (t mod 4)·1024 + k. -/
theorem xblk_apply (c : Dev nD) (t : Fin cfg0.N) (p k : Fin 1024) (row : Fin 8192) (cl : Fin 4096)
    (hr : row.val = t.val / 16 * 1024 + p.val) (hc : cl.val = t.val % 4 * 1024 + k.val) :
    xblk m c t (ix2 p k) = xarr m c (ix2 row cl) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 1024 + 1 * p.val = row.val; omega
  | ⟨1, _⟩ => show win0_0.index t (1 : Fin 2) * 1024 + 1 * k.val = cl.val; omega

/-- Entry (q, k) of W's block at point t is W at row ((t / 4) mod 4)·1024 + q and column (t mod 4)·1024 + k. -/
theorem wblk_apply (c : Dev nD) (t : Fin cfg0.N) (q k : Fin 1024) (row : Fin 4096) (cl : Fin 4096)
    (hr : row.val = t.val / 4 % 4 * 1024 + q.val) (hc : cl.val = t.val % 4 * 1024 + k.val) :
    wblk m c t (ix2 q k) = warr m c (ix2 row cl) := by
  obtain ⟨-, -, e0, e1, -⟩ := idx_facts t
  show V m c main_arg3 (((cfg0.win 1).blk t).view.emb (ix2 q k)) = _
  rw [V_main_arg3]
  refine congrArg _ (funext fun a => Fin.ext ?_)
  match a with
  | ⟨0, _⟩ => show win0_1.index t (0 : Fin 2) * 1024 + 1 * q.val = row.val; omega
  | ⟨1, _⟩ => show win0_1.index t (1 : Fin 2) * 1024 + 1 * k.val = cl.val; omega

/-- Entry (k, r) of A's block at point t is A at row (t mod 4)·1024 + k and column r. -/
theorem ablk_apply (c : Dev nD) (t : Fin cfg0.N) (k : Fin 1024) (r : Fin 16) (row : Fin 4096)
    (hr : row.val = t.val % 4 * 1024 + k.val) :
    ablk m c t (ix2 k r) = aarr m c (ix2 row r) := by
  obtain ⟨-, -, -, -, e0, e1, -⟩ := idx_facts t
  show V m c main_arg1 (((cfg0.win 2).blk t).view.emb (ix2 k r)) = _
  rw [V_main_arg1]
  refine congrArg _ (funext fun a => Fin.ext ?_)
  match a with
  | ⟨0, _⟩ => show win0_2.index t (0 : Fin 2) * 1024 + 1 * k.val = row.val; omega
  | ⟨1, _⟩ => show win0_2.index t (1 : Fin 2) * 16 + 1 * r.val = r.val; omega

/-- Entry (r, q) of B's block at point t is B at row r and column ((t / 4) mod 4)·1024 + q. -/
theorem bblk_apply (c : Dev nD) (t : Fin cfg0.N) (r : Fin 16) (q : Fin 1024) (cl : Fin 4096)
    (hc : cl.val = t.val / 4 % 4 * 1024 + q.val) :
    bblk m c t (ix2 r q) = barr m c (ix2 r cl) := by
  obtain ⟨-, -, -, -, -, -, e0, e1, -⟩ := idx_facts t
  show V m c main_arg2 (((cfg0.win 3).blk t).view.emb (ix2 r q)) = _
  rw [V_main_arg2]
  refine congrArg _ (funext fun a => Fin.ext ?_)
  match a with
  | ⟨0, _⟩ => show win0_3.index t (0 : Fin 2) * 16 + 1 * r.val = r.val; omega
  | ⟨1, _⟩ => show win0_3.index t (1 : Fin 2) * 1024 + 1 * q.val = cl.val; omega

/-- The bias enters the region as a one-row matrix: the host reshapes the vector before the launch. -/
theorem bias_row (c : Dev nD) :
    (V m c main_call0_v0 : S1x4096.Idx → EReal) = shapeCast S1x4096 (biasarr m c) shapeCasts_S4096_S1x4096 := by
  dsimp only [Gen.V, Gen.hostOps0]
  after_results
  rfl

/-- Entry (0, q) of the bias block at point t is the bias at ((t / 4) mod 4)·1024 + q. -/
theorem biasblk_apply (c : Dev nD) (t : Fin cfg0.N) (q : Fin 1024) (cl : Fin 4096)
    (hc : cl.val = t.val / 4 % 4 * 1024 + q.val) :
    biasblk m c t (ix2 (0 : Fin 1) q) = biasarr m c (ix1 cl) := by
  obtain ⟨-, -, -, -, -, -, -, -, e0, e1, -⟩ := idx_facts t
  show (V m c main_call0_v0 : S1x4096.Idx → EReal) (((cfg0.win 4).blk t).view.emb (ix2 (0 : Fin 1) q)) = _
  rw [bias_row, ← shapeCast_a_1a_apply (biasarr m c) shapeCasts_S4096_S1x4096 (0 : Fin 1) cl]
  refine congrArg _ (funext fun a => Fin.ext ?_)
  match a with
  | ⟨0, _⟩ => show win0_4.index t (0 : Fin 2) * 1 + 1 * 0 = 0; omega
  | ⟨1, _⟩ => show win0_4.index t (1 : Fin 2) * 1024 + 1 * q.val = cl.val; omega

/-- What point n adds to entry (p, q) of the accumulator, from its blocks (nothing past the grid). -/
def step (c : Dev nD) (n : ℕ) (p q : Fin 1024) : EReal :=
  if h : n < cfg0.N then
    (∑ k : Fin 1024, xblk m c ⟨n, h⟩ (ix2 p k) * wblk m c ⟨n, h⟩ (ix2 q k))
      + (∑ r : Fin 16, (∑ k : Fin 1024, xblk m c ⟨n, h⟩ (ix2 p k) * ablk m c ⟨n, h⟩ (ix2 k r)) * bblk m c ⟨n, h⟩ (ix2 r q))
          * LoraLinear.two
  else 0

/-- The first point of a run leaves zero plus its own contribution, whatever the accumulator held. -/
theorem step_reset (c : Dev nD) (n : ℕ) (h : n < cfg0.N) (h4 : n % 4 = 0) (acc : Vec Ideal S1024x1024 .f32) (y : S1024x1024.Idx) :
    scAt0_0 m c n h acc y = LoraLinear.zero + step m c n (y 0) (y 1) := by
  obtain ⟨p, q, rfl⟩ : ∃ (p q : Fin 1024), y = ix2 p q := ⟨y 0, y 1, eq_ix2 y⟩
  have h1 : ¬n % 4 = 3 := by omega
  unfold scAt0_0
  rw [dif_pos h4, dif_neg h1, Pieces.scratch_A, Payload.update_apply, Payload.reset_apply]
  show _ = LoraLinear.zero + step m c n p q
  unfold step
  rw [dif_pos h]

/-- Every later point of the run adds its own contribution to what the point before left. -/
theorem step_next (c : Dev nD) (n : ℕ) (h : n < cfg0.N) (h4 : ¬n % 4 = 0) (acc : Vec Ideal S1024x1024 .f32) (y : S1024x1024.Idx) :
    scAt0_0 m c n h acc y = acc y + step m c n (y 0) (y 1) := by
  obtain ⟨p, q, rfl⟩ : ∃ (p q : Fin 1024), y = ix2 p q := ⟨y 0, y 1, eq_ix2 y⟩
  unfold scAt0_0
  rw [dif_neg h4]
  by_cases h1 : n % 4 = 3
  · rw [dif_pos h1, Pieces.scratch_C, Payload.update_apply]
    show _ = acc (ix2 p q) + step m c n p q
    unfold step
    rw [dif_pos h]
  · rw [dif_neg h1, Pieces.scratch_B, Payload.update_apply]
    show _ = acc (ix2 p q) + step m c n p q
    unfold step
    rw [dif_pos h]

/-- At the last point of a run the accumulator holds zero plus the four points' contributions. -/
theorem acc_at_last (c : Dev nD) (t : Fin cfg0.N) (h3 : t.val % 4 = 3) (p q : Fin 1024) :
    (outsAt0 m c t.val t.isLt).2 (ix2 p q)
      = LoraLinear.zero + ∑ s ∈ Finset.range 4, step m c (4 * (t.val / 4) + s) p q := by
  refine (congrFun (soutsAt0_0_eq m c t) (ix2 p q)).trans ?_
  refine (Pipeline.accAt_add_apply (N := cfg0.N) (ι := S1024x1024.Idx) (β := EReal)
    (fun n h => scAt0_0 m c n h (VS0_0.read (Elt Ideal) VS0_0.junk)) (scAt0_0 m c) (fun _ => LoraLinear.zero)
    (fun n y => step m c n (y 0) (y 1)) (4 * (t.val / 4)) 3
    (fun h i => step_reset m c _ h (by omega) _ i)
    (fun n h acc i hb he => step_next m c n h (by omega) acc i)
    (t.val % 4) (by omega) _ (ix2 p q)).trans ?_
  rw [h3]

/-- A point's contribution in terms of the argument arrays: it is its stretch's term at the entry's row and column. -/
theorem step_global (c : Dev nD) (n : ℕ) (h : n < cfg0.N) (p q : Fin 1024) (row : Fin 8192) (cl : Fin 4096) (s : Fin 4)
    (hr : row.val = n / 16 * 1024 + p.val) (hc : cl.val = n / 4 % 4 * 1024 + q.val) (hs : s.val = n % 4) :
    step m c n p q = LoraLinear.stretchTerm (xarr m c) (aarr m c) (barr m c) (warr m c) row cl s := by
  have hk : ∀ k : Fin 1024, (LoraLinear.col s k).val = (⟨n, h⟩ : Fin cfg0.N).val % 4 * 1024 + k.val := fun k => by
    show s.val * 1024 + k.val = n % 4 * 1024 + k.val; rw [hs]
  unfold step LoraLinear.stretchTerm
  rw [dif_pos h]
  refine congrArg₂ (· + ·) ?_ (congrArg (· * LoraLinear.two) ?_)
  · refine Finset.sum_congr rfl fun k _ => ?_
    rw [xblk_apply m c ⟨n, h⟩ p k row (LoraLinear.col s k) hr (hk k), wblk_apply m c ⟨n, h⟩ q k cl (LoraLinear.col s k) hc (hk k)]
  · refine Finset.sum_congr rfl fun r _ => ?_
    rw [bblk_apply m c ⟨n, h⟩ r q cl hc]
    refine congrArg (· * barr m c (ix2 r cl)) ?_
    refine Finset.sum_congr rfl fun k _ => ?_
    rw [xblk_apply m c ⟨n, h⟩ p k row (LoraLinear.col s k) hr (hk k), ablk_apply m c ⟨n, h⟩ k r (LoraLinear.col s k) (hk k)]

/-- An entry of the result is in point t's output block exactly when each coordinate is in the block's range. -/
theorem mem_out_blk (t : Fin cfg0.N) (i : S8192x4096.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v0).slice (win0_5.rect t)).set ↔ _
  rw [View.set_slice_whole, Rect.mem_set_unit]
  exact Iff.rfl

/-- What a run's last point writes back is its block of the blocked arrangement of the five argument arrays. -/
theorem flushed_eq (c : Dev nD) (t : Fin cfg0.N) (hf : (cfg0.win 5).flush t = true) :
    (dats m 0 c).flushed 5 t = ((cfg0.win 5).blk t).view.read (Elt Ideal)
      (LoraLinear.blocked (xarr m c) (aarr m c) (barr m c) (warr m c) (biasarr m c)) := by
  have h3 : t.val % 4 = 3 := (flush0_5 t).mp hf
  have h0 : ¬t.val % 4 = 0 := by omega
  have hN : t.val < 128 := lt_of_lt_of_eq t.isLt (show cfg0.N = 128 from N_0)
  obtain ⟨-, -, -, -, -, -, -, -, -, -, e0, e1⟩ := idx_facts t
  rw [flushed5_C m c t h0 h3, Pieces.output_C]
  -- the accumulator written back is what this point leaves in the carried accumulator
  have hacc : (outsAt0 m c t.val t.isLt).2
      = k0_pay2 (iblk m c 0 t) (iblk m c 1 t) (iblk m c 2 t) (iblk m c 3 t)
          (outsAt0 m c (t.val - 1) (Nat.lt_of_le_of_lt (Nat.sub_le _ _) t.isLt)).2 := by
    rw [outsAt0_C m c t h0 h3]
    dsimp only
    exact Pieces.scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) _ _ _
  rw [← hacc]
  funext y
  obtain ⟨p, q, rfl⟩ : ∃ (p q : Fin 1024), y = ix2 p q := ⟨y 0, y 1, eq_ix2 y⟩
  show k0_pay3 (F := Ideal) (outsAt0 m c t.val t.isLt).2 (iblk m c 4 t) (ix2 p q)
    = LoraLinear.blocked (xarr m c) (aarr m c) (barr m c) (warr m c) (biasarr m c) (((cfg0.win 5).blk t).view.emb (ix2 p q))
  have hrow : ((((cfg0.win 5).blk t).view.emb (ix2 p q)) 0).val = t.val / 16 * 1024 + p.val := by
    show win0_5.index t (0 : Fin 2) * 1024 + 1 * p.val = _; omega
  have hcl : ((((cfg0.win 5).blk t).view.emb (ix2 p q)) 1).val = t.val / 4 % 4 * 1024 + q.val := by
    show win0_5.index t (1 : Fin 2) * 1024 + 1 * q.val = _; omega
  rw [Payload.output_apply, acc_at_last m c t h3, Finset.sum_range]
  unfold LoraLinear.blocked
  refine congrArg₂ (· + ·) (congrArg (LoraLinear.zero + ·) ?_) ?_
  · refine Finset.sum_congr rfl fun s _ => ?_
    have hs := s.isLt
    exact step_global m c _ (lt_of_lt_of_eq (by omega : 4 * (t.val / 4) + s.val < 128) N_0.symm) p q _ _ s (by rw [hrow]; omega) (by rw [hcl]; omega) (by omega)
  · exact biasblk_apply m c t q _ hcl

/-- The 32 written blocks tile the result: entry (i₀, i₁) lies in the block written by the last point of the run at block
    row i₀ / 1024 and block column i₁ / 1024. -/
theorem covered (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hN : cfg0.N = 128 := N_0
  let t : Fin cfg0.N := ⟨(i 0).val / 1024 * 16 + (i 1).val / 1024 * 4 + 3, by rw [hN]; omega⟩
  have ht : t.val = (i 0).val / 1024 * 16 + (i 1).val / 1024 * 4 + 3 := rfl
  obtain ⟨-, -, -, -, -, -, -, -, -, -, e0, e1⟩ := idx_facts t
  refine ⟨t, (flush0_5 t).mpr (by omega), ?_⟩
  rw [mem_out_blk]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 1024 ≤ (i 1).val ∧ (i 1).val < win0_5.index t (1 : Fin 2) * 1024 + 1024
    omega

/-- So the result array ends holding the blocked arrangement. -/
theorem final (c : Dev nD) :
    (dats m 0 c).arrAt 5 cfg0.N = LoraLinear.blocked (xarr m c) (aarr m c) (barr m c) (warr m c) (biasarr m c) :=
  (dats m 0 c).arrAt_eq_of_cover 5 _ (flushed_eq m c) covered

/-- The kernel's run: the result at the blocked arrangement of the arguments as launched, the arguments unchanged. -/
theorem run : θ_run defs (onTc (τ := τ) (main (F := Ideal))) ⟨m, fun _ => 0, ρ⟩ fun r => ∀ c : Dev nD,
      r.2.mem ((c : Thread nD τ).loc main_v0) = LoraLinear.blocked (xarr m c) (aarr m c) (barr m c) (warr m c) (biasarr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.LoraValue

end
-- ==== Proof.lean ====
/-
  A linear layer with a low-rank correction, tiled over an 8 × 4 × 4 grid, against its plain jnp form.

  The kernel walks the 4096 shared columns in four stretches of 1024 per output block, adding to a carried accumulator the
  partial product of x with Wᵀ and twice the partial low-rank product (x·A)·B, and writes the accumulator plus the bias at
  the last stretch: its result array is the blocked arrangement of the five argument arrays. The reference forms
  ((x·A)·B)·2 + (x·Wᵀ + b) whole: the plain arrangement. The two arrangements differ by distributivity, which on the
  extended reals needs every entry to be a real number; the precondition (every input finite) gives exactly that.

  The three frames are the generated ones (the reference's is its generated run with the result dropped); the idealization
  rewrote nothing, so its conjunct is trivial.
-/
import proofs.«166719_j49520972922883_1_alg».proof.Defs
import proofs.«166719_j49520972922883_1_alg».proof.Proof.Gen.Kernel
import proofs.«166719_j49520972922883_1_alg».proof.Proof.Gen.Kernel.Skeleton
import proofs.«166719_j49520972922883_1_alg».proof.Proof.Gen.Kernel.Launch
import proofs.«166719_j49520972922883_1_alg».proof.Proof.Gen.Kernel.Points
import proofs.«166719_j49520972922883_1_alg».proof.Proof.Gen.Kernel.Frame
import proofs.«166719_j49520972922883_1_alg».proof.Proof.Gen.KernelIdeal
import proofs.«166719_j49520972922883_1_alg».proof.Proof.Gen.KernelIdeal.Skeleton
import proofs.«166719_j49520972922883_1_alg».proof.Proof.Gen.KernelIdeal.Launch
import proofs.«166719_j49520972922883_1_alg».proof.Proof.Gen.KernelIdeal.Points
import proofs.«166719_j49520972922883_1_alg».proof.Proof.Gen.KernelIdeal.Frame
import proofs.«166719_j49520972922883_1_alg».proof.Proof.Gen.ReferenceIdeal
import proofs.«166719_j49520972922883_1_alg».proof.Proof.Gen.Pre_finite_inputs
import proofs.«166719_j49520972922883_1_alg».proof.Proof.Gen.KernelIdeal.Value
import proofs.«166719_j49520972922883_1_alg».proof.Proof.Gen.ReferenceIdeal.Run
import proofs.«166719_j49520972922883_1_alg».proof.Proof.Gen.ReferenceIdeal.Read
import proofs.«166719_j49520972922883_1_alg».proof.Proof.LoraSpec
import proofs.«166719_j49520972922883_1_alg».proof.Proof.Finite
import proofs.«166719_j49520972922883_1_alg».proof.Proof.RefValue
import proofs.«166719_j49520972922883_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result is the blocked arrangement of its arguments, the reference's the plain arrangement of arguments
    that agree with them, and on real entries the two arrangements are one array. -/
theorem algebraic : Cert.algebraic_KernelIdeal_ReferenceIdeal := by
  intro m ρ m' ρ' hpre hagree
  refine ⟨fun c => LoraLinear.blocked (Cert.KernelIdeal.LoraValue.xarr m c) (Cert.KernelIdeal.LoraValue.aarr m c)
    (Cert.KernelIdeal.LoraValue.barr m c) (Cert.KernelIdeal.LoraValue.warr m c) (Cert.KernelIdeal.LoraValue.biasarr m c),
    Cert.KernelIdeal.LoraValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.reference_eq_plain,
    (hagree c).1, (hagree c).2.1, (hagree c).2.2.1, (hagree c).2.2.2.1, (hagree c).2.2.2.2]
  obtain ⟨hX, hA, hB, hW, hb⟩ := Cert.Pre_finite_inputs.Finite.entries_real _ _ _ _ _ (hpre c)
  exact (LoraLinear.blocked_eq_plain _ _ _ _ _ hX hA hB hW hb).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
